-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) (main_arg2 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  main_v13
-- ==== Kernel.lean ====
abbrev S16x2048x128 : Shape := ⟨3, ![16, 2048, 128]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x128, .bf16⟩
  | .hbm, ⟨4, _⟩ => ⟨S16x2048x128, .bf16⟩
  | .hbm, ⟨5, _⟩ => ⟨S16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x128, .f32⟩
  | .local _ .vmem, ⟨7, _⟩ => ⟨S1x1024x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x2048x128.size a
  hwx0_0 : ∀ i : grid0.Coords, EltTy.bits .f32 = 32 ∨ (Rect.block (s := S16x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .bf16 = 32 ∨ (Rect.block (s := S16x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .bf16 = 32 ∨ (Rect.block (s := S16x2048x128) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S16x2048x128.size a
  hwx0_3 : ∀ i : grid0.Coords, EltTy.bits .f32 = 32 ∨ (Rect.block (s := S16x2048x128) S1x1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Softmax.lean ====
/-
  One entry of scaled dot-product attention, in the two groupings the two programs use, and the proof that the
  groupings agree on real operands.

  Fix a query row `Q : κ → EReal`, the keys `K : ι → κ → EReal`, one column of the values `V : ι → EReal` and the
  scale `c`.  With scores `s j`, row maximum `μ` and weights `w j = exp (s j - μ)`:

    * `kerEntry`: `s j = ∑ d, (Q d · c) · K j d`, `μ` the fold of `max` from `-∞`, and the entry is
      `(∑ j, w j · V j) / (∑ j, w j)` — the scale applied to the query, the normalisation applied last;
    * `refEntry`: `s j = (∑ d, Q d · K j d) · c`, `μ` guarded once more against `-∞`, and the entry is
      `∑ j, (w j / (0 + ∑ j', w j')) · V j` — the scale applied to the scores, every weight normalised first.

  On the extended reals the two differ at infinities (multiplication does not distribute there), so the equality is
  proved for real operands: then every score is real, the maximum over a non-empty row is real, every weight is a
  positive real, their sum is a positive real, and the identity is `(∑ w v) / l = ∑ (w / l) v` in `ℝ`.
-/
import Idealize.ShloMosaic.PureOps.Ideal
import Idealize.ShloMosaic.PureOps.Ideal.Laws

noncomputable section

namespace Cert.Attention

open Idealize.ShloMosaic

variable {ι κ : Type} [Fintype ι] [Fintype κ]

/-- An extended real that is a real number. -/
def IsReal (x : EReal) : Prop := ∃ r : ℝ, x = (r : EReal)

/-- The weights `exp (s j - μ)` of a row of scores against a maximum. -/
def weights (s : ι → EReal) (μ : EReal) (j : ι) : EReal := Ideal.exp (s j - μ)

/-- The entry with the scale on the query and the division last. -/
def kerEntry (c : EReal) (Q : κ → EReal) (K : ι → κ → EReal) (V : ι → EReal) : EReal :=
  Ideal.div
    (∑ j, weights (fun j => ∑ d, (Q d * c) * K j d) (Finset.univ.fold max ⊥ fun j => ∑ d, (Q d * c) * K j d) j * V j)
    (∑ j, weights (fun j => ∑ d, (Q d * c) * K j d) (Finset.univ.fold max ⊥ fun j => ∑ d, (Q d * c) * K j d) j)

/-- The entry with the scale on the scores and every weight divided by the row's sum first. -/
def refEntry (c : EReal) (Q : κ → EReal) (K : ι → κ → EReal) (V : ι → EReal) : EReal :=
  ∑ j, Ideal.div
      (weights (fun j => (∑ d, Q d * K j d) * c) (max ⊥ (Finset.univ.fold max ⊥ fun j => (∑ d, Q d * K j d) * c)) j)
      (0 + ∑ j', weights (fun j => (∑ d, Q d * K j d) * c) (max ⊥ (Finset.univ.fold max ⊥ fun j => (∑ d, Q d * K j d) * c)) j')
    * V j

/-- The coercion of a finite real sum is the sum of the coercions. -/
theorem coe_sum {α : Type} (s : Finset α) (f : α → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real scores: the scale may sit on the query or on the contracted sum. -/
theorem score_eq (c : ℝ) (Q : κ → ℝ) (K : κ → ℝ) :
    (∑ d, ((Q d : EReal) * (c : EReal)) * (K d : EReal)) = (∑ d, (Q d : EReal) * (K d : EReal)) * (c : EReal) := by
  simp only [← EReal.coe_mul, ← coe_sum]
  congr 1
  rw [Finset.sum_mul]
  exact Finset.sum_congr rfl fun d _ => by ring

/-- The maximum of a non-empty row of reals, folded from `-∞`, is a real. -/
theorem foldMax_real [Nonempty ι] (s : ι → ℝ) :
    ∃ μ : ℝ, (Finset.univ : Finset ι).fold max (⊥ : EReal) (fun j => (s j : EReal)) = (μ : EReal) := by
  have h1 : (Finset.univ : Finset ι).fold max (⊥ : EReal) (fun j => (s j : EReal)) ≠ ⊤ := by
    apply ne_of_lt
    rw [Finset.fold_max_lt]
    exact ⟨bot_lt_top, fun j _ => EReal.coe_lt_top _⟩
  have h2 : (Finset.univ : Finset ι).fold max (⊥ : EReal) (fun j => (s j : EReal)) ≠ ⊥ := by
    apply ne_of_gt
    rw [Finset.lt_fold_max]
    obtain ⟨j⟩ := ‹Nonempty ι›
    exact Or.inr ⟨j, Finset.mem_univ j, EReal.bot_lt_coe _⟩
  exact ⟨_, (EReal.coe_toReal h1 h2).symm⟩

/-- Positive real weights: dividing the weighted sum by the weights' sum is summing the normalised weights. -/
theorem normalise_eq [Nonempty ι] (w V : ι → ℝ) (hw : ∀ j, 0 < w j) :
    Ideal.div (∑ j, (w j : EReal) * (V j : EReal)) (∑ j, (w j : EReal))
      = ∑ j, Ideal.div (w j : EReal) (0 + ∑ j', (w j' : EReal)) * (V j : EReal) := by
  have hl : (∑ j, w j) ≠ 0 := ne_of_gt (Finset.sum_pos (fun j _ => hw j) Finset.univ_nonempty)
  rw [zero_add, ← coe_sum]
  simp only [Ideal.div_coe hl, ← EReal.coe_mul, ← coe_sum]
  congr 1
  rw [Finset.sum_mul]
  exact Finset.sum_congr rfl fun j _ => by ring

/-- On real operands the two groupings give one entry. -/
theorem kerEntry_eq_refEntry_real [Nonempty ι] (c : ℝ) (Q : κ → ℝ) (K : ι → κ → ℝ) (V : ι → ℝ) :
    kerEntry (c : EReal) (fun d => (Q d : EReal)) (fun j d => (K j d : EReal)) (fun j => (V j : EReal))
      = refEntry (c : EReal) (fun d => (Q d : EReal)) (fun j d => (K j d : EReal)) (fun j => (V j : EReal)) := by
  unfold kerEntry refEntry
  have hs : (fun j : ι => ∑ d, ((Q d : EReal) * (c : EReal)) * (K j d : EReal))
      = fun j : ι => (((∑ d, Q d * K j d) * c : ℝ) : EReal) := by
    funext j
    rw [score_eq c Q (K j)]
    simp only [← EReal.coe_mul, ← coe_sum]
  have hs' : (fun j : ι => (∑ d, (Q d : EReal) * (K j d : EReal)) * (c : EReal))
      = fun j : ι => (((∑ d, Q d * K j d) * c : ℝ) : EReal) := by
    funext j
    simp only [← EReal.coe_mul, ← coe_sum]
  rw [hs, hs']
  obtain ⟨μ, hμ⟩ := foldMax_real (fun j : ι => (∑ d, Q d * K j d) * c)
  rw [hμ, max_eq_right bot_le]
  have hw : ∀ j : ι, weights (fun j : ι => (((∑ d, Q d * K j d) * c : ℝ) : EReal)) (μ : EReal) j
      = ((Real.exp ((∑ d, Q d * K j d) * c - μ) : ℝ) : EReal) := fun j => by
    unfold weights
    rw [← EReal.coe_sub, Ideal.exp_coe]
  simp only [hw]
  exact normalise_eq _ V fun j => Real.exp_pos _

/-- The same for extended-real operands that are real numbers. -/
theorem kerEntry_eq_refEntry [Nonempty ι] (c : EReal) (Q : κ → EReal) (K : ι → κ → EReal) (V : ι → EReal)
    (hc : IsReal c) (hQ : ∀ d, IsReal (Q d)) (hK : ∀ j d, IsReal (K j d)) (hV : ∀ j, IsReal (V j)) :
    kerEntry c Q K V = refEntry c Q K V := by
  obtain ⟨c', rfl⟩ := hc
  choose Q' hQ' using hQ
  choose K' hK' using hK
  choose V' hV' using hV
  obtain rfl : Q = fun d => (Q' d : EReal) := funext hQ'
  obtain rfl : K = fun j d => (K' j d : EReal) := funext fun j => funext (hK' j)
  obtain rfl : V = fun j => (V' j : EReal) := funext hV'
  exact kerEntry_eq_refEntry_real c' Q' K' V'

/-- The scale both programs carry, the f32 nearest to `128^(-1/2)`, is a real number. -/
theorem scale_isReal : IsReal (Ideal.ofBits .f32 0x3DB504F3#32) := by
  unfold IsReal
  simp only [Ideal.ofBits, Ideal.ieee]
  simp [-EReal.coe_mul]

end Cert.Attention

end
-- ==== Proof.KernelEntry.lean ====
/-
  The kernel body's stored value, entry by entry.

  One grid point loads a query block `x0 : [1, 1024, 128]`, the key block `x1 : [1, 2048, 128]` and the value block
  `x2 : [1, 2048, 128]`, and stores one `[1, 1024, 128]` block.  Read at the ideal values (format changes are the
  identity, a matrix product into a zero accumulator is the plain sum over the contracted coordinate, a lane reduction
  is a sum or a fold of `max` over the lane coordinate), the entry at row `r`, column `d` is

    (∑ j, w j · x2[j, d]) / (∑ j, w j),   w j = exp (s j - max_j s j),   s j = ∑ d', (x0[r, d'] · c) · x1[j, d']

  which is `Cert.Attention.kerEntry` of row `r` of the query block, the key block and column `d` of the value block.
  The body is cut into five stages (scores, weights, row sums, weighted values, quotient); each is read at an index on
  its own, over vectors that are variables.
-/
import proofs.«402128_j5892695130577_3_alg».proof.Proof.Gen.KernelIdeal.Skeleton
import proofs.«402128_j5892695130577_3_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx Cert.Attention

/-! ## The two contractions' operand indices -/

theorem lhsQK_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhsQK_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhsQK_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhsQK_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

theorem lhsPV_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsPV_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsPV_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsPV_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Query rows against key rows: entry `(r, j)` contracts the shared last coordinate. -/
theorem matmulQK_apply (a : FVec Ideal S1024x128 .bf16) (b : FVec Ideal S2048x128 .bf16) (r : Fin 1024) (j : Fin 2048) :
    matmul dot_S1024x128_S2048x128_S1024x2048_1_1_0_0_n_n none a b (constant (F := Ideal) S1024x2048 .f32 0x00000000#32) (ix2 r j)
      = ∑ d : Fin 128, a (ix2 r d) * b (ix2 j d) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r j) ((contrEquiv1 dot_S1024x128_S2048x128_S1024x2048_1_1_0_0_n_n 128 rfl rfl).symm k) = ix2 r k := funext fun a => Fin.ext (by
    match a with
    | ⟨0, _⟩ => exact lhsQK_0 _ _
    | ⟨1, _⟩ => exact (lhsQK_1 _ _).trans hk)
  have er : dot_S1024x128_S2048x128_S1024x2048_1_1_0_0_n_n.rhsIdx (ix2 r j) ((contrEquiv1 dot_S1024x128_S2048x128_S1024x2048_1_1_0_0_n_n 128 rfl rfl).symm k) = ix2 j k := funext fun a => Fin.ext (by
    match a with
    | ⟨0, _⟩ => exact rhsQK_0 _ _
    | ⟨1, _⟩ => exact (rhsQK_1 _ _).trans hk)
  rw [el, er]

/-- Weights against value columns: entry `(r, d)` contracts the key coordinate. -/
theorem matmulPV_apply (a : FVec Ideal S1024x2048 .bf16) (b : FVec Ideal S2048x128 .bf16) (r : Fin 1024) (d : Fin 128) :
    matmul dot_S1024x2048_S2048x128_S1024x128_1_0_0_1_n_n none a b (constant (F := Ideal) S1024x128 .f32 0x00000000#32) (ix2 r d)
      = ∑ j : Fin 2048, a (ix2 r j) * b (ix2 j d) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r d) ((contrEquiv1 dot_S1024x2048_S2048x128_S1024x128_1_0_0_1_n_n 2048 rfl rfl).symm k) = ix2 r k := funext fun a => Fin.ext (by
    match a with
    | ⟨0, _⟩ => exact lhsPV_0 _ _
    | ⟨1, _⟩ => exact (lhsPV_1 _ _).trans hk)
  have er : dot_S1024x2048_S2048x128_S1024x128_1_0_0_1_n_n.rhsIdx (ix2 r d) ((contrEquiv1 dot_S1024x2048_S2048x128_S1024x128_1_0_0_1_n_n 2048 rfl rfl).symm k) = ix2 k d := funext fun a => Fin.ext (by
    match a with
    | ⟨0, _⟩ => exact (rhsPV_0 _ _).trans hk
    | ⟨1, _⟩ => exact rhsPV_1 _ _)
  rw [el, er]

/-! ## The lane reductions and the column forms -/

/-- The word `0xFF800000` is `-∞`. -/
theorem negInf : (FloatOps.ofBits (F := Ideal) .f32 0xFF800000#32 : EReal) = ⊥ := by
  show Ideal.ofBits .f32 0xFF800000#32 = ⊥
  simp [Ideal.ofBits, Ideal.ieee]

/-- A row's maximum: the fold of `max` from `-∞` over the row. -/
theorem rowMax_apply (s : FVec Ideal S1024x2048 .f32) (hφ : FKind.Formats .f32)
    (hacc : (0xFF800000#32 : BitVec 32) = FKind.maximumf.neutral .f32 hφ) (r : Fin 1024) :
    multiReduction .maximumf [1] S1024 s 0xFF800000#32 reduces_S1024x2048_S1024 hφ hacc (ix1 r)
      = (Finset.univ : Finset (Fin 2048)).fold max ⊥ (fun j => s (ix2 r j)) := by
  refine (Ideal.multiReduction_maximumf_single s _ reduces_S1024x2048_S1024 hφ hacc (ix1 r)).trans ?_
  rw [negInf]
  exact congrArg (fun f => (Finset.univ : Finset (Fin 2048)).fold max ⊥ f)
    (funext fun j => congrArg s (funext fun a => Fin.ext (by match a with | ⟨0, _⟩ => rfl | ⟨1, _⟩ => rfl)))

/-- A row's sum. -/
theorem rowSum_apply (w : FVec Ideal S1024x2048 .f32) (hφ : FKind.Formats .f32)
    (hacc : (0x00000000#32 : BitVec 32) = FKind.add.neutral .f32 hφ) (r : Fin 1024) :
    multiReduction .add [1] S1024 w 0x00000000#32 reduces_S1024x2048_S1024 hφ hacc (ix1 r)
      = ∑ j : Fin 2048, w (ix2 r j) := by
  refine (Ideal.multiReduction_add_single w _ reduces_S1024x2048_S1024 hφ hacc (ix1 r)).trans ?_
  exact Finset.sum_congr rfl fun j _ =>
    congrArg w (funext fun a => Fin.ext (by match a with | ⟨0, _⟩ => rfl | ⟨1, _⟩ => rfl))

/-- A vector of row values laid out as a column. -/
theorem col_apply (x : FVec Ideal S1024 .f32) (r : Fin 1024) (u : Fin 1) :
    shapeCast S1024x1 x shapeCasts_S1024_S1024x1 (ix2 r u) = x (ix1 r) :=
  shapeCast_apply x _ _ _ (by
    rw [Shape.rowMajor_val_one, Shape.rowMajor_val_two]
    show r.val = r.val * 1 + u.val
    omega)

/-- The column repeated along a row of 2048. -/
theorem bcast2048_apply (x : FVec Ideal S1024x1 .f32) (r : Fin 1024) (j : Fin 2048) :
    broadcastTo S1024x2048 x broadcasts_S1024x1_S1024x2048 (ix2 r j) = x (ix2 r (0 : Fin 1)) := by
  refine broadcastTo_apply x _ (ix2 r j) (ix2 r (0 : Fin 1)) fun ax => ?_
  match ax with
  | ⟨0, _⟩ => show r.val = if (1024 : ℕ) = 1 then 0 else r.val; rw [if_neg (by decide)]
  | ⟨1, _⟩ => show (0 : ℕ) = if (1 : ℕ) = 1 then 0 else j.val; rw [if_pos rfl]

/-- The column repeated along a row of 128. -/
theorem bcast128_apply (x : FVec Ideal S1024x1 .f32) (r : Fin 1024) (d : Fin 128) :
    broadcastTo S1024x128 x broadcasts_S1024x1_S1024x128 (ix2 r d) = x (ix2 r (0 : Fin 1)) := by
  refine broadcastTo_apply x _ (ix2 r d) (ix2 r (0 : Fin 1)) fun ax => ?_
  match ax with
  | ⟨0, _⟩ => show r.val = if (1024 : ℕ) = 1 then 0 else r.val; rw [if_neg (by decide)]
  | ⟨1, _⟩ => show (0 : ℕ) = if (1 : ℕ) = 1 then 0 else d.val; rw [if_pos rfl]

/-! ## The body's five stages -/

/-- The scores: the scaled query block against the key block. -/
def scoresV (x0 : FVec Ideal S1x1024x128 .f32) (x1 : FVec Ideal S1x2048x128 .bf16) : FVec Ideal S1024x2048 .f32 :=
  matmul dot_S1024x128_S2048x128_S1024x2048_1_1_0_0_n_n none
    (truncf .bf16 (mulf (shapeCast S1024x128 x0 shapeCasts_S1x1024x128_S1024x128) (broadcast S1024x128 (Scalar.ofBits .f32 0x3DB504F3#32))) bitsLt_bf16_f32)
    (shapeCast S2048x128 x1 shapeCasts_S1x2048x128_S2048x128) (constant S1024x2048 .f32 0x00000000#32)

/-- The weights: each score less its row's maximum, exponentiated. -/
def wtsV (s : FVec Ideal S1024x2048 .f32) : FVec Ideal S1024x2048 .f32 :=
  exp (subf s (broadcastTo S1024x2048 (shapeCast S1024x1 (multiReduction .maximumf [1] S1024 s 0xFF800000#32 reduces_S1024x2048_S1024 (.inl rfl) rfl) shapeCasts_S1024_S1024x1) broadcasts_S1024x1_S1024x2048))

/-- The rows' sums. -/
def sumsV (w : FVec Ideal S1024x2048 .f32) : FVec Ideal S1024 .f32 :=
  multiReduction .add [1] S1024 w 0x00000000#32 reduces_S1024x2048_S1024 (.inl rfl) rfl

/-- The weights against the value block. -/
def pvV (w : FVec Ideal S1024x2048 .f32) (x2 : FVec Ideal S1x2048x128 .bf16) : FVec Ideal S1024x128 .f32 :=
  matmul dot_S1024x2048_S2048x128_S1024x128_1_0_0_1_n_n none (truncf .bf16 w bitsLt_bf16_f32)
    (shapeCast S2048x128 x2 shapeCasts_S1x2048x128_S2048x128) (constant S1024x128 .f32 0x00000000#32)

/-- The stored block is the quotient of the last two, laid back out with its leading unit axis. -/
theorem pay_eq (x0 : FVec Ideal S1x1024x128 .f32) (x1 x2 : FVec Ideal S1x2048x128 .bf16) :
    k0_pay1 (F := Ideal) x0 x1 x2
      = shapeCast S1x1024x128 (divf (pvV (wtsV (scoresV x0 x1)) x2)
          (broadcastTo S1024x128 (shapeCast S1024x1 (sumsV (wtsV (scoresV x0 x1))) shapeCasts_S1024_S1024x1) broadcasts_S1024x1_S1024x128))
          shapeCasts_S1024x128_S1x1024x128 := rfl

theorem scoresV_apply (x0 : FVec Ideal S1x1024x128 .f32) (x1 : FVec Ideal S1x2048x128 .bf16) (r : Fin 1024) (j : Fin 2048) :
    scoresV x0 x1 (ix2 r j)
      = ∑ d : Fin 128, (x0 (ix3 (0 : Fin 1) r d) * Ideal.ofBits .f32 0x3DB504F3#32) * x1 (ix3 (0 : Fin 1) j d) := by
  unfold scoresV
  rw [matmulQK_apply]
  refine Finset.sum_congr rfl fun d _ => ?_
  show (shapeCast S1024x128 x0 shapeCasts_S1x1024x128_S1024x128 (ix2 r d) * Ideal.ofBits .f32 0x3DB504F3#32)
    * shapeCast S2048x128 x1 shapeCasts_S1x2048x128_S2048x128 (ix2 j d) = _
  rw [shapeCast_1ab_ab_apply, shapeCast_1ab_ab_apply]

theorem wtsV_apply (s : FVec Ideal S1024x2048 .f32) (r : Fin 1024) (j : Fin 2048) :
    wtsV s (ix2 r j) = weights (fun j : Fin 2048 => s (ix2 r j)) ((Finset.univ : Finset (Fin 2048)).fold max ⊥ fun j => s (ix2 r j)) j := by
  unfold wtsV weights
  show Ideal.exp (s (ix2 r j) - broadcastTo S1024x2048 _ broadcasts_S1024x1_S1024x2048 (ix2 r j)) = _
  rw [bcast2048_apply, col_apply]
  exact congrArg (fun μ => Ideal.exp (s (ix2 r j) - μ)) (rowMax_apply s _ _ r)

theorem sumsV_apply (w : FVec Ideal S1024x2048 .f32) (r : Fin 1024) : sumsV w (ix1 r) = ∑ j : Fin 2048, w (ix2 r j) := by
  unfold sumsV
  exact rowSum_apply w _ _ r

theorem pvV_apply (w : FVec Ideal S1024x2048 .f32) (x2 : FVec Ideal S1x2048x128 .bf16) (r : Fin 1024) (d : Fin 128) :
    pvV w x2 (ix2 r d) = ∑ j : Fin 2048, w (ix2 r j) * x2 (ix3 (0 : Fin 1) j d) := by
  unfold pvV
  rw [matmulPV_apply]
  refine Finset.sum_congr rfl fun j _ => ?_
  show w (ix2 r j) * shapeCast S2048x128 x2 shapeCasts_S1x2048x128_S2048x128 (ix2 j d) = _
  rw [shapeCast_1ab_ab_apply]

/-- THE ENTRY: the stored block at `(u, r, d)` is the attention entry of query row `r` and value column `d`. -/
theorem pay_apply (x0 : FVec Ideal S1x1024x128 .f32) (x1 x2 : FVec Ideal S1x2048x128 .bf16) (u : Fin 1) (r : Fin 1024) (d : Fin 128) :
    k0_pay1 (F := Ideal) x0 x1 x2 (ix3 u r d)
      = kerEntry (Ideal.ofBits .f32 0x3DB504F3#32) (fun d' : Fin 128 => x0 (ix3 (0 : Fin 1) r d'))
          (fun (j : Fin 2048) (d' : Fin 128) => x1 (ix3 (0 : Fin 1) j d')) (fun j : Fin 2048 => x2 (ix3 (0 : Fin 1) j d)) := by
  rw [pay_eq, shapeCast_ab_1ab_apply]
  show Ideal.div (pvV (wtsV (scoresV x0 x1)) x2 (ix2 r d))
    (broadcastTo S1024x128 (shapeCast S1024x1 (sumsV (wtsV (scoresV x0 x1))) shapeCasts_S1024_S1024x1) broadcasts_S1024x1_S1024x128 (ix2 r d)) = _
  rw [bcast128_apply, col_apply, sumsV_apply, pvV_apply]
  unfold kerEntry
  simp only [wtsV_apply, scoresV_apply]

end Cert.KernelIdeal.Entry

end
-- ==== Proof.KernelArray.lean ====
/-
  From blocks to the whole result array of the kernel.

  The grid is 16 × 2: point `t` is batch `t / 2`, query tile `t % 2`.  It reads rows `1024·(t % 2) …` of batch
  `t / 2`'s queries, all of that batch's keys and values, and writes rows `1024·(t % 2) …` of that batch's result.
  So what point `t` writes back is block `t` of ONE whole-array function `G` — entry `(b, r, d)` the attention entry
  of query row `r` of batch `b` against batch `b`'s keys and column `d` of batch `b`'s values — and the 32 blocks
  tile the array (row `r` of batch `b` lies in the block of point `2·b + r / 1024`).  The keys and values the region
  finds are the arguments after a change of float format, which at the ideal values changes nothing.
-/
import proofs.«402128_j5892695130577_3_alg».proof.Proof.Gen.KernelIdeal.Value
import proofs.«402128_j5892695130577_3_alg».proof.Proof.KernelEntry
import Idealize.ShloMosaic.Lib.StableHlo.Run

noncomputable section

namespace Cert.KernelIdeal.Arr

open Cert.KernelIdeal Cert.KernelIdeal.Gen Cert.KernelIdeal.Entry Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

/-- The result as one function of the three arrays the region reads: entry `(b, r, d)`. -/
def G (A0 : FVec Ideal S16x2048x128 .f32) (A1 A2 : FVec Ideal S16x2048x128 .bf16) : FVec Ideal S16x2048x128 .f32 := fun i =>
  kerEntry (Ideal.ofBits .f32 0x3DB504F3#32) (fun d' : Fin 128 => A0 (ix3 (i 0) (i 1) d'))
    (fun (j : Fin 2048) (d' : Fin 128) => A1 (ix3 (i 0) j d')) (fun j : Fin 2048 => A2 (ix3 (i 0) j (i 2)))

/-- The entry depends on its operands only through their values. -/
theorem kerEntry_congr {ι κ : Type} [Fintype ι] [Fintype κ] {c : EReal} {Q Q' : κ → EReal} {K K' : ι → κ → EReal} {V V' : ι → EReal}
    (hQ : ∀ d, Q d = Q' d) (hK : ∀ j d, K j d = K' j d) (hV : ∀ j, V j = V' j) : kerEntry c Q K V = kerEntry c Q' K' V' := by
  obtain rfl : Q = Q' := funext hQ
  obtain rfl : K = K' := funext fun j => funext (hK j)
  obtain rfl : V = V' := funext hV
  rfl

/-- A body block whose loads are the right rows of the arrays stores the matching entries of `G`. -/
theorem block_entry (A0 : FVec Ideal S16x2048x128 .f32) (A1 A2 : FVec Ideal S16x2048x128 .bf16)
    (x0 : FVec Ideal S1x1024x128 .f32) (x1 x2 : FVec Ideal S1x2048x128 .bf16) (y : S1x1024x128.Idx) (i : S16x2048x128.Idx)
    (h0 : ∀ d' : Fin 128, x0 (ix3 (0 : Fin 1) (y 1) d') = A0 (ix3 (i 0) (i 1) d'))
    (h1 : ∀ (j : Fin 2048) (d' : Fin 128), x1 (ix3 (0 : Fin 1) j d') = A1 (ix3 (i 0) j d'))
    (h2 : ∀ j : Fin 2048, x2 (ix3 (0 : Fin 1) j (y 2)) = A2 (ix3 (i 0) j (i 2))) :
    k0_pay1 (F := Ideal) x0 x1 x2 y = G A0 A1 A2 i := by
  exact ((congrArg (k0_pay1 (F := Ideal) x0 x1 x2) (eq_ix3 y)).trans (pay_apply x0 x1 x2 (y 0) (y 1) (y 2))).trans
    (kerEntry_congr h0 h1 h2)

theorem hz : (![0, 0, 0] : Fin 3 → Nat) = fun _ => 0 := funext fun a => by fin_cases a <;> rfl

/-- The index maps over the grid: the query window moves with the result window, the key and value windows sit at the
    result's batch; the result's block index is (batch, tile, 0) = (t / 2, t % 2, 0). -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- WHAT POINT `t` WRITES BACK is block `t` of `G` of the arrays as the region finds them. -/
theorem flushed_eq (c : Dev nD) (t : Fin cfg0.N) :
    (dats m 0 c).flushed 3 t
      = ((cfg0.win 3).blk t).view.read (Elt Ideal) (G (V m c main_arg0) (V m c main_v0) (V m c main_v1)) := by
  rw [Value.flushed3]
  unfold out0_3
  rw [View.canon_unit_zero hz]
  simp only [View.ld_unit_zero (S := S1x1024x128) hz, View.ld_unit_zero (S := S1x2048x128) hz]
  obtain ⟨e00, e01, e02, e10, e11, e12, e20, e21, e22, e30, e31, e32⟩ := idx_facts t
  funext y
  have hy0 : (y 0).val < 1 := (y 0).isLt
  have hy1 : (y 1).val < 1024 := (y 1).isLt
  have hy2 : (y 2).val < 128 := (y 2).isLt
  show k0_pay1 (F := Ideal) (iblk m c 0 t) (iblk m c 1 t) (iblk m c 2 t) y
    = G (V m c main_arg0) (V m c main_v0) (V m c main_v1) (((cfg0.win 3).blk t).view.emb y)
  refine block_entry (V m c main_arg0) (V m c main_v0) (V m c main_v1) (iblk m c 0 t) (iblk m c 1 t) (iblk m c 2 t) y
    (((cfg0.win 3).blk t).view.emb y) (fun d' => ?_) (fun j d' => ?_) (fun j => ?_)
  · show V m c main_arg0 (((cfg0.win 0).blk t).view.emb (ix3 (0 : Fin 1) (y 1) d'))
      = V m c main_arg0 (ix3 ((((cfg0.win 3).blk t).view.emb y) 0) ((((cfg0.win 3).blk t).view.emb y) 1) d')
    refine congrArg (V m c main_arg0) (funext fun a => Fin.ext ?_)
    match a with
    | ⟨0, _⟩ => show win0_0.index t (0 : Fin 3) * 1 + 1 * 0 = win0_3.index t (0 : Fin 3) * 1 + 1 * (y 0).val; omega
    | ⟨1, _⟩ => show win0_0.index t (1 : Fin 3) * 1024 + 1 * (y 1).val = win0_3.index t (1 : Fin 3) * 1024 + 1 * (y 1).val; omega
    | ⟨2, _⟩ => show win0_0.index t (2 : Fin 3) * 128 + 1 * d'.val = d'.val; omega
  · show V m c main_v0 (((cfg0.win 1).blk t).view.emb (ix3 (0 : Fin 1) j d'))
      = V m c main_v0 (ix3 ((((cfg0.win 3).blk t).view.emb y) 0) j d')
    refine congrArg (V m c main_v0) (funext fun a => Fin.ext ?_)
    match a with
    | ⟨0, _⟩ => show win0_1.index t (0 : Fin 3) * 1 + 1 * 0 = win0_3.index t (0 : Fin 3) * 1 + 1 * (y 0).val; omega
    | ⟨1, _⟩ => show win0_1.index t (1 : Fin 3) * 2048 + 1 * j.val = j.val; omega
    | ⟨2, _⟩ => show win0_1.index t (2 : Fin 3) * 128 + 1 * d'.val = d'.val; omega
  · show V m c main_v1 (((cfg0.win 2).blk t).view.emb (ix3 (0 : Fin 1) j (y 2)))
      = V m c main_v1 (ix3 ((((cfg0.win 3).blk t).view.emb y) 0) j ((((cfg0.win 3).blk t).view.emb y) 2))
    refine congrArg (V m c main_v1) (funext fun a => Fin.ext ?_)
    match a with
    | ⟨0, _⟩ => show win0_2.index t (0 : Fin 3) * 1 + 1 * 0 = win0_3.index t (0 : Fin 3) * 1 + 1 * (y 0).val; omega
    | ⟨1, _⟩ => show win0_2.index t (1 : Fin 3) * 2048 + 1 * j.val = j.val; omega
    | ⟨2, _⟩ => show win0_2.index t (2 : Fin 3) * 128 + 1 * (y 2).val = win0_3.index t (2 : Fin 3) * 128 + 1 * (y 2).val; omega

/-- An index of the array is in point `t`'s block iff each coordinate is in the block's range on its axis. -/
theorem mem_blk (t : Fin cfg0.N) (i : S16x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v2).slice (win0_3.rect t)).set ↔ _
  rw [View.set_slice_whole, Rect.mem_set_unit]
  exact Iff.rfl

/-- The 32 blocks tile the array: row `r` of batch `b` is in the block of point `2·b + r / 1024`. -/
theorem cover (i : S16x2048x128.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  have hN : grid0.N = 32 := N_0
  have ht : (i 0).val * 2 + (i 1).val / 1024 < cfg0.N := by show _ < grid0.N; omega
  obtain ⟨e00, e01, e02, e10, e11, e12, e20, e21, e22, e30, e31, e32⟩ := idx_facts ⟨(i 0).val * 2 + (i 1).val / 1024, ht⟩
  refine ⟨⟨(i 0).val * 2 + (i 1).val / 1024, ht⟩, flush0_3 _, ?_⟩
  rw [mem_blk]
  have q0 : win0_3.index ⟨(i 0).val * 2 + (i 1).val / 1024, ht⟩ (0 : Fin 3) = ((i 0).val * 2 + (i 1).val / 1024) / 2 := e30
  have q1 : win0_3.index ⟨(i 0).val * 2 + (i 1).val / 1024, ht⟩ (1 : Fin 3) = ((i 0).val * 2 + (i 1).val / 1024) % 2 := e31
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 128 ≤ (i 2).val ∧ (i 2).val < win0_3.index _ (2 : Fin 3) * 128 + 128; omega

/-- THE ARRAY after the run: `G` of the arrays the region finds. -/
theorem final (c : Dev nD) :
    (dats m 0 c).arrAt 3 cfg0.N = G (V m c main_arg0) (V m c main_v0) (V m c main_v1) :=
  (dats m 0 c).arrAt_eq_of_cover 3 _ (fun t _ => flushed_eq m c t) cover

/-- The keys the region finds are the second argument: the host's change of format is the identity at the ideal values. -/
theorem V_keys (c : Dev nD) :
    (V m c main_v0 : FVec Ideal S16x2048x128 .bf16) = (m ((c : Thread nD τ).loc main_arg1) : FVec Ideal S16x2048x128 .f32) := by
  dsimp only [V, hostOps0]
  after_results
  rfl

/-- The values the region finds are the third argument. -/
theorem V_values (c : Dev nD) :
    (V m c main_v1 : FVec Ideal S16x2048x128 .bf16) = (m ((c : Thread nD τ).loc main_arg2) : FVec Ideal S16x2048x128 .f32) := by
  dsimp only [V, hostOps0]
  after_results
  rfl

/-- The kernel's run: the result array ends at `G` of the three arguments, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨by rw [(h c).1, final, V_main_arg0, V_keys, V_values], (h c).2⟩)
    (Value.run_blocks m ρ)

end Cert.KernelIdeal.Arr

end
-- ==== Proof.RefEntry.lean ====
/-
  The reference's result, entry by entry.

  The reference contracts the queries with the keys, scales the scores, takes a softmax over the key coordinate (each
  score less its row's maximum, exponentiated, divided by the row's sum) and contracts the result with the values.  Read
  stage by stage at the index `(b, r, d)`, that is `Cert.Attention.refEntry` of row `r` of batch `b`'s queries, batch
  `b`'s keys and column `d` of batch `b`'s values.  The one stage read by hand is the row maximum: a reduction by
  `max` over the last axis, from `-∞`, is the fold of `max` over that axis's coordinates.
-/
import proofs.«402128_j5892695130577_3_alg».proof.Proof.Gen.ReferenceIdeal.Read
import proofs.«402128_j5892695130577_3_alg».proof.Proof.Softmax
import Idealize.ShloMosaic.Lib.ValueIdx
import Idealize.ShloMosaic.PureOps.Ideal.Laws
import Idealize.ShloMosaic.PureOps.Reduce

noncomputable section

namespace Cert.ReferenceIdeal.Entry

open Cert.ReferenceIdeal Cert.ReferenceIdeal.Gen Cert.ReferenceIdeal.Read Idealize.ShloMosaic Idealize.ShloMosaic.ValueIdx Cert.Attention

variable (x0 x1 x2 : FVec Ideal S16x2048x128 .f32)

/-! ## The stages' operand indices at `(b, r, ·)` -/

theorem lidx0 (b : Fin 16) (r j : Fin 2048) (k : Fin 128) : lidx_main_v0 (ix3 b r j) k = ix3 b r k :=
  funext fun a => Fin.ext (by match a with | ⟨0, _⟩ => rfl | ⟨1, _⟩ => rfl | ⟨2, _⟩ => rfl)
theorem ridx0 (b : Fin 16) (r j : Fin 2048) (k : Fin 128) : ridx_main_v0 (ix3 b r j) k = ix3 b j k :=
  funext fun a => Fin.ext (by match a with | ⟨0, _⟩ => rfl | ⟨1, _⟩ => rfl | ⟨2, _⟩ => rfl)
theorem idx7 (b : Fin 16) (r j : Fin 2048) : idx_main_v7 (ix3 b r j) = ix3 b r (0 : Fin 1) :=
  funext fun a => Fin.ext (by match a with | ⟨0, _⟩ => rfl | ⟨1, _⟩ => rfl | ⟨2, _⟩ => rfl)
theorem idx6 (b : Fin 16) (r : Fin 2048) (u : Fin 1) : idx_main_v6 (ix3 b r u) = ix2 b r :=
  funext fun a => Fin.ext (by match a with | ⟨0, _⟩ => rfl | ⟨1, _⟩ => rfl)
theorem idx12 (b : Fin 16) (r j : Fin 2048) : idx_main_v12 (ix3 b r j) = ix3 b r (0 : Fin 1) :=
  funext fun a => Fin.ext (by match a with | ⟨0, _⟩ => rfl | ⟨1, _⟩ => rfl | ⟨2, _⟩ => rfl)
theorem idx11 (b : Fin 16) (r : Fin 2048) (u : Fin 1) : idx_main_v11 (ix3 b r u) = ix2 b r :=
  funext fun a => Fin.ext (by match a with | ⟨0, _⟩ => rfl | ⟨1, _⟩ => rfl)
theorem idx10 (b : Fin 16) (r : Fin 2048) (k : Fin 2048) : idx_main_v10 (ix2 b r) k = ix3 b r k :=
  funext fun a => Fin.ext (by match a with | ⟨0, _⟩ => rfl | ⟨1, _⟩ => rfl | ⟨2, _⟩ => rfl)
theorem lidx14 (b : Fin 16) (r : Fin 2048) (d : Fin 128) (k : Fin 2048) : lidx_main_v14 (ix3 b r d) k = ix3 b r k :=
  funext fun a => Fin.ext (by match a with | ⟨0, _⟩ => rfl | ⟨1, _⟩ => rfl | ⟨2, _⟩ => rfl)
theorem ridx14 (b : Fin 16) (r : Fin 2048) (d : Fin 128) (k : Fin 2048) : ridx_main_v14 (ix3 b r d) k = ix3 b k d :=
  funext fun a => Fin.ext (by match a with | ⟨0, _⟩ => rfl | ⟨1, _⟩ => rfl | ⟨2, _⟩ => rfl)

/-- The word `0xFF800000` is `-∞`. -/
theorem negInf : Ideal.ofBits .f32 0xFF800000#32 = (⊥ : EReal) := by simp [Ideal.ofBits, Ideal.ieee]

/-! ## The stages -/

/-- The scaled score of query `r` against key `j`. -/
theorem v2_apply (b : Fin 16) (r j : Fin 2048) :
    val_main_v2 (F := Ideal) x0 x1 (ix3 b r j)
      = (∑ d : Fin 128, x0 (ix3 b r d) * x1 (ix3 b j d)) * Ideal.ofBits .f32 0x3DB504F3#32 := by
  rw [val_main_v2_apply, val_main_v0_apply, val_main_v1_apply, val_main_cst_apply]
  simp only [lidx0, ridx0]
  rfl

/-- The row maximum, as the fold of `max` from `-∞` over the keys (for any witness that the last axis reduces away). -/
theorem v3_apply_of (h : S16x2048x2048.Reduces [2] S16x2048) (b : Fin 16) (r : Fin 2048) :
    val_main_v3 (F := Ideal) x0 x1 (ix2 b r)
      = (Finset.univ : Finset (Fin 2048)).fold max ⊥ (fun j => val_main_v2 (F := Ideal) x0 x1 (ix3 b r j)) := by
  unfold val_main_v3
  refine (Host.reduce_eq_fold_single (α := Ideal .f32) (FloatOps.maximumf (F := Ideal) (φ := .f32))
    (val_main_v2 (F := Ideal) x0 x1) (val_main_cst_0 (F := Ideal)) reducesTo_S16x2048x2048_S16x2048_d2 h h_S_ (ix2 b r)).trans ?_
  have hb : val_main_cst_0 (F := Ideal) (Shape.Idx.first h_S_) = (⊥ : EReal) := negInf
  rw [hb]
  have hf : (val_main_v2 (F := Ideal) x0 x1 ∘ h.lift (ix2 b r)) = fun j : Fin 2048 => val_main_v2 (F := Ideal) x0 x1 (ix3 b r j) :=
    funext fun j => congrArg (val_main_v2 (F := Ideal) x0 x1)
      (funext fun a => Fin.ext (by match a with | ⟨0, _⟩ => rfl | ⟨1, _⟩ => rfl | ⟨2, _⟩ => rfl))
  exact congrArg (fun f => Finset.fold max (⊥ : EReal) f (Finset.univ : Finset (Fin 2048))) hf

theorem v3_apply (b : Fin 16) (r : Fin 2048) :
    val_main_v3 (F := Ideal) x0 x1 (ix2 b r)
      = (Finset.univ : Finset (Fin 2048)).fold max ⊥ (fun j => val_main_v2 (F := Ideal) x0 x1 (ix3 b r j)) :=
  v3_apply_of x0 x1 (by decide) b r

/-- … guarded once more against `-∞`. -/
theorem v5_apply (b : Fin 16) (r : Fin 2048) :
    val_main_v5 (F := Ideal) x0 x1 (ix2 b r)
      = max ⊥ ((Finset.univ : Finset (Fin 2048)).fold max ⊥ fun j => val_main_v2 (F := Ideal) x0 x1 (ix3 b r j)) := by
  rw [val_main_v5_apply, val_main_v4_apply, val_main_cst_1_apply, v3_apply]
  show max (Ideal.ofBits .f32 0xFF800000#32) _ = _
  rw [negInf]

/-- The weight of key `j` for query `r`. -/
theorem v9_apply (b : Fin 16) (r j : Fin 2048) :
    val_main_v9 (F := Ideal) x0 x1 (ix3 b r j)
      = weights (fun j : Fin 2048 => val_main_v2 (F := Ideal) x0 x1 (ix3 b r j)) (val_main_v5 (F := Ideal) x0 x1 (ix2 b r)) j := by
  rw [val_main_v9_apply, val_main_v8_apply, val_main_v7_apply, idx7, val_main_v6_apply, idx6]
  rfl

/-- The row's sum of weights, from zero. -/
theorem v12_apply (b : Fin 16) (r j : Fin 2048) :
    val_main_v12 (F := Ideal) x0 x1 (ix3 b r j) = 0 + ∑ j' : Fin 2048, val_main_v9 (F := Ideal) x0 x1 (ix3 b r j') := by
  rw [val_main_v12_apply, idx12, val_main_v11_apply, idx11, val_main_v10_apply, val_main_cst_2_apply]
  simp only [idx10]
  show Ideal.ofBits .f32 0x00000000#32 + _ = _
  rw [Ideal.ofBits_zero_f32]

/-- THE ENTRY: the reference's result at `(b, r, d)`. -/
theorem ref_apply (b : Fin 16) (r : Fin 2048) (d : Fin 128) :
    val_main_v14 (F := Ideal) x0 x1 x2 (ix3 b r d)
      = refEntry (Ideal.ofBits .f32 0x3DB504F3#32) (fun d' : Fin 128 => x0 (ix3 b r d'))
          (fun (j : Fin 2048) (d' : Fin 128) => x1 (ix3 b j d')) (fun j : Fin 2048 => x2 (ix3 b j d)) := by
  rw [val_main_v14_apply]
  unfold refEntry
  refine Finset.sum_congr rfl fun k _ => ?_
  rw [lidx14, ridx14, val_main_v13_apply, v12_apply]
  simp only [v9_apply, v5_apply, v2_apply]
  rfl

end Cert.ReferenceIdeal.Entry

end
-- ==== Proof.Finite.lean ====
/-
  What the precondition gives: every entry of the three inputs is a real number.

  The precondition is the conjunction, over the three inputs, of "every entry `x` has `|x| < +∞`".  On the extended
  reals `|x| = max x (-x)`, and `max x (-x) < ⊤` excludes both `x = ⊤` and `x = ⊥`; what is left is a real.
-/
import proofs.«402128_j5892695130577_3_alg».proof.Pre_finite_inputs
import proofs.«402128_j5892695130577_3_alg».proof.Proof.Softmax
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic Cert.Attention

variable [Facts]
open Facts

instance : Subsingleton S_.Idx := ⟨fun a b => funext fun d => d.elim0⟩

/-- An extended real whose absolute value is below `+∞` (the word `0x7F800000`) is a real. -/
theorem isReal_of_abs_lt_inf (x : EReal)
    (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  have hlt : max x (-x) < ⊤ := by
    by_contra hn
    rw [show Ideal.cmp .olt (max x (-x)) ⊤ = BitVec.ofBool (decide (max x (-x) < ⊤)) from rfl, decide_eq_false hn] at h
    exact absurd h (by decide)
  rw [max_lt_iff] at hlt
  have h1 : x ≠ ⊤ := ne_of_lt hlt.1
  have h2 : x ≠ ⊥ := by
    intro hh
    subst hh
    simp at hlt
  exact ⟨x.toReal, (EReal.coe_toReal h1 h2).symm⟩

/-- The precondition all ones: every entry of every input is a real. -/
theorem isReal_of_pre (a0 a1 a2 : FVec Ideal S16x2048x128 .f32) (h : fn (F := Ideal) a0 a1 a2 = fun _ => 1#1) :
    (∀ i, IsReal (a0 i)) ∧ (∀ i, IsReal (a1 i)) ∧ (∀ i, IsReal (a2 i)) := by
  have h0 := congrFun h ValueIdx.ix0
  dsimp only [fn] at h0
  obtain ⟨h01, h2⟩ := IntOp.andi_eq_one.1 h0
  obtain ⟨h0', h1'⟩ := IntOp.andi_eq_one.1 h01
  exact ⟨fun i => isReal_of_abs_lt_inf _ (Host.reduce_andi_all _ _ _ _ _ h0' i),
    fun i => isReal_of_abs_lt_inf _ (Host.reduce_andi_all _ _ _ _ _ h1' i),
    fun i => isReal_of_abs_lt_inf _ (Host.reduce_andi_all _ _ _ _ _ h2 i)⟩

end Cert.Pre_finite_inputs.Finite

end
-- ==== Proof.lean ====
/-
  Scaled dot-product attention over f32[16, 2048, 128]: the kernel against its jnp reference, over the extended reals.

  Both programs compute, for batch `b`, query row `r` and value column `d`,

      ∑ j, softmax_j (c · ⟨q[b, r, ·], k[b, j, ·]⟩) · v[b, j, d]         (c the f32 nearest to 128^(-1/2))

  The kernel multiplies the query by `c` before contracting with the keys and divides by the softmax's denominator
  after contracting with the values; the reference multiplies the contracted scores by `c` and divides every weight by
  the denominator before contracting with the values.  Moving `c` across the first sum and the denominator across the
  second are both distributivity, which on the extended reals needs finite operands: the precondition says every input
  entry is finite, hence a real, and from there every score is real, the row maximum is real, every weight is a
  positive real and the denominator is a positive real (`Proof/Softmax.lean`).

  The kernel's result array as one function of the arguments is read off its frame run block by block
  (`Proof/KernelEntry.lean`: one stored entry; `Proof/KernelArray.lean`: the 32 blocks tile the array); the
  reference's result at an index is read off its run stage by stage (`Proof/RefEntry.lean`); `Proof/Finite.lean`
  turns the precondition into "every entry is a real".
-/
import proofs.«402128_j5892695130577_3_alg».proof.Defs
import proofs.«402128_j5892695130577_3_alg».proof.Proof.Gen.Kernel
import proofs.«402128_j5892695130577_3_alg».proof.Proof.Gen.Kernel.Skeleton
import proofs.«402128_j5892695130577_3_alg».proof.Proof.Gen.Kernel.Launch
import proofs.«402128_j5892695130577_3_alg».proof.Proof.Gen.Kernel.Points
import proofs.«402128_j5892695130577_3_alg».proof.Proof.Gen.Kernel.Frame
import proofs.«402128_j5892695130577_3_alg».proof.Proof.Gen.KernelIdeal
import proofs.«402128_j5892695130577_3_alg».proof.Proof.Gen.KernelIdeal.Skeleton
import proofs.«402128_j5892695130577_3_alg».proof.Proof.Gen.KernelIdeal.Launch
import proofs.«402128_j5892695130577_3_alg».proof.Proof.Gen.KernelIdeal.Points
import proofs.«402128_j5892695130577_3_alg».proof.Proof.Gen.KernelIdeal.Frame
import proofs.«402128_j5892695130577_3_alg».proof.Proof.Gen.ReferenceIdeal
import proofs.«402128_j5892695130577_3_alg».proof.Proof.Gen.Pre_finite_inputs
import proofs.«402128_j5892695130577_3_alg».proof.Proof.Gen.KernelIdeal.Value
import proofs.«402128_j5892695130577_3_alg».proof.Proof.Gen.ReferenceIdeal.Run
import proofs.«402128_j5892695130577_3_alg».proof.Proof.Gen.ReferenceIdeal.Read
import proofs.«402128_j5892695130577_3_alg».proof.Proof.Softmax
import proofs.«402128_j5892695130577_3_alg».proof.Proof.KernelEntry
import proofs.«402128_j5892695130577_3_alg».proof.Proof.KernelArray
import proofs.«402128_j5892695130577_3_alg».proof.Proof.RefEntry
import proofs.«402128_j5892695130577_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Attention

/-- On arrays of reals the kernel's whole-array function is the reference's result: at `(b, r, d)` the two are the
    two groupings of one attention entry. -/
theorem result_eq (a0 a1 a2 : FVec Ideal Cert.ReferenceIdeal.S16x2048x128 .f32)
    (h0 : ∀ i, IsReal (a0 i)) (h1 : ∀ i, IsReal (a1 i)) (h2 : ∀ i, IsReal (a2 i)) :
    Cert.KernelIdeal.Arr.G a0 a1 a2 = Cert.ReferenceIdeal.Read.val_main_v14 (F := Ideal) a0 a1 a2 := by
  funext i
  obtain ⟨b, r, d, rfl⟩ : ∃ (b : Fin 16) (r : Fin 2048) (d : Fin 128), i = ix3 b r d := ⟨i 0, i 1, i 2, eq_ix3 i⟩
  rw [Cert.ReferenceIdeal.Entry.ref_apply]
  exact kerEntry_eq_refEntry _ _ _ _ scale_isReal (fun d' => h0 _) (fun j d' => h1 _) (fun j => h2 _)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the kernel's whole-array function of the (agreeing, finite) arguments. -/
theorem algebraic : Cert.algebraic_KernelIdeal_ReferenceIdeal := by
  intro m ρ m' ρ' hpre hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨f0, f1, f2⟩ := Cert.Pre_finite_inputs.Finite.isReal_of_pre _ _ _ (hpre c)
  exact (result_eq _ _ _ f0 f1 f2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
